-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S800000 .f32) (main_arg5 : FVec F S800000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S800000 .f32 := Host.absf main_arg4
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  let main_v24 : FVec F S800000 .f32 := Host.absf main_arg5
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128x128 .f32) (main_arg3 : FVec F S128 .f32) (main_arg4 : FVec F S800000 .f32) (main_arg5 : FVec F S800000 .f32) (main_arg6 : IVec S2x800000 32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S2x800000 : Shape := ⟨2, ![2, 800000]⟩
abbrev S5000x128 : Shape := ⟨2, ![5000, 128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 52
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S800000, .f32⟩
  | .hbm, ⟨5, _⟩ => ⟨S800000, .f32⟩
  | .hbm, ⟨6, _⟩ => ⟨S2x800000, .i32⟩
  | .hbm, ⟨7, _⟩ => ⟨S2x800000, .i32⟩
  | .hbm, ⟨8, _⟩ => ⟨S50000x128, .f32⟩
  | .hbm, ⟨9, _⟩ => ⟨S50000x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S800000, .f32⟩
  | .hbm, ⟨5, _⟩ => ⟨S800000, .f32⟩
  | .hbm, ⟨6, _⟩ => ⟨S2x800000, .i32⟩
  | .hbm, ⟨7, _⟩ => ⟨S2x800000, .i32⟩
  | .hbm, ⟨8, _⟩ => ⟨S50000x128, .f32⟩
  | .hbm, ⟨9, _⟩ => ⟨S50000x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_cst : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.MatmulPoint.lean ====
/-
  One grid point of either matmul region, read at an index over the extended reals.

  The body loads its 5000 × 128 block of rows `x` and the whole 128 × 128 weight `w`, changes both to bf16 (the
  identity on extended reals) and multiplies into a zero accumulator. So the value it stores at row `r`, column `q`
  of the block is the plain sum `∑ k, x (r, k) * w (k, q)` over the 128 contracted coordinates: the accumulator
  contributes `0`, and the contraction's one-axis index type is `Fin 128` reindexed.
-/
import proofs.«151465_j73796128080687_1_alg».proof.Proof.Gen.KernelIdeal.Skeleton
import Idealize.ShloMosaic.Lib.ValueIdx
import Idealize.ShloMosaic.PureOps.Ideal.Laws

noncomputable section

namespace Cert.KernelIdeal.Matmul

open Cert.KernelIdeal Cert.KernelIdeal.Gen Idealize.ShloMosaic Idealize.ShloMosaic.TcCoe Idealize.SL.Sem

/-! ## The block product's operand indices, axis by axis -/

/-- The left operand is read at the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand is read at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, k)` of the block of rows, for output index `i = (r, q)`. -/
abbrev rowIdx (i : S5000x128.Idx) (k : Fin 128) : S5000x128.Idx := fun a => match a with
  | ⟨0, _⟩ => ⟨(i 0).val, (i 0).isLt⟩
  | ⟨1, _⟩ => ⟨k.val, k.isLt⟩
/-- Entry `(k, q)` of the weight, for output index `i = (r, q)`. -/
abbrev colIdx (i : S5000x128.Idx) (k : Fin 128) : S128x128.Idx := fun a => match a with
  | ⟨0, _⟩ => ⟨k.val, k.isLt⟩
  | ⟨1, _⟩ => ⟨(i 1).val, (i 1).isLt⟩

/-- The product into a zero accumulator, at an index: the sum over the contracted coordinate. -/
theorem matmul_zero_apply (x : FVec Ideal S5000x128 .bf16) (w : FVec Ideal S128x128 .bf16) (i : S5000x128.Idx) :
    matmul dot_S5000x128_S128x128_S5000x128_1_0_0_1_n_n none x w (constant S5000x128 .f32 0x00000000#32) i
      = ∑ k : Fin 128, x (rowIdx i k) * w (colIdx i k) := by
  show FloatOps.matmul dot_S5000x128_S128x128_S5000x128_1_0_0_1_n_n none x w (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowIdx i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = colIdx i k := funext fun a => Fin.ext (by
    match a with
    | ⟨0, _⟩ => exact (rhs_axis0 _ _).trans hk
    | ⟨1, _⟩ => exact rhs_axis1 _ _)
  rw [el, er]

/-- What region 0's body stores, at an index: the change of format is the identity on extended reals. -/
theorem pay0_apply (x : Vec Ideal S5000x128 .f32) (w : Vec Ideal S128x128 .f32) (i : S5000x128.Idx) :
    k0_pay1 (F := Ideal) x w i = ∑ k : Fin 128, x (rowIdx i k) * w (colIdx i k) := by
  unfold k0_pay1
  exact matmul_zero_apply _ _ i

/-- Region 1's body is the same function of its loads. -/
theorem pay1_apply (x : Vec Ideal S5000x128 .f32) (w : Vec Ideal S128x128 .f32) (i : S5000x128.Idx) :
    k1_pay1 (F := Ideal) x w i = ∑ k : Fin 128, x (rowIdx i k) * w (colIdx i k) := by
  unfold k1_pay1
  exact matmul_zero_apply _ _ i

end Cert.KernelIdeal.Matmul

end
-- ==== Proof.Spec.lean ====
/-
  The two functions both programs compute around their shared sparse aggregation, over literal shapes.

  `prod x w` is the dense product of the 50000 × 128 node features with a 128 × 128 weight: entry `(r, q)` is
  `∑ k, x (r, k) * w (k, q)`. `biasRelu a₀ a₁ b` is the closing elementwise step: entry `(r, q)` is
  `max ((a₀ (r, q) + a₁ (r, q)) + b q) 0`, the sums grouped exactly so on both sides.
-/
import Idealize.ShloMosaic.PureOps.Ideal
import Idealize.ShloMosaic.Lib.ValueIdx

noncomputable section

namespace Cert.Spec

open Idealize.ShloMosaic Idealize.ShloMosaic.ValueIdx

/-- Node features and every per-node result: 50000 rows of 128. -/
abbrev SN : Shape := ⟨2, ![50000, 128]⟩
/-- A weight: 128 × 128. -/
abbrev SW : Shape := ⟨2, ![128, 128]⟩
/-- The bias: 128. -/
abbrev SB : Shape := ⟨1, ![128]⟩

/-- Entry `(r, k)` of the features, for the output index `i = (r, q)`. -/
abbrev rowOf (i : SN.Idx) (k : Fin 128) : SN.Idx := fun a => match a with
  | ⟨0, _⟩ => ⟨(i 0).val, (i 0).isLt⟩
  | ⟨1, _⟩ => ⟨k.val, k.isLt⟩
/-- Entry `(k, q)` of the weight, for the output index `i = (r, q)`. -/
abbrev colOf (i : SN.Idx) (k : Fin 128) : SW.Idx := fun a => match a with
  | ⟨0, _⟩ => ⟨k.val, k.isLt⟩
  | ⟨1, _⟩ => ⟨(i 1).val, (i 1).isLt⟩
/-- The bias entry of the output index `i = (r, q)`: `q`. -/
abbrev biasOf (i : SN.Idx) : SB.Idx := fun a => match a with
  | ⟨0, _⟩ => ⟨(i 1).val, (i 1).isLt⟩

/-- The dense product, entry by entry. -/
def prod (x : SN.Idx → EReal) (w : SW.Idx → EReal) : SN.Idx → EReal :=
  fun i => ∑ k : Fin 128, x (rowOf i k) * w (colOf i k)

/-- The closing step: the two aggregates added, the bias added to that, the maximum with zero. -/
def biasRelu (a0 a1 : SN.Idx → EReal) (b : SB.Idx → EReal) : SN.Idx → EReal :=
  fun i => max ((a0 i + a1 i) + b (biasOf i)) (Ideal.ofBits .f32 0x00000000#32)

end Cert.Spec

end
-- ==== Proof.Region0.lean ====
/-
  Region 0 of the kernel's program: what its output array holds when the region ends.

  The region walks ten grid points; point `t` loads rows `5000 t … 5000 t + 4999` of the features and the whole
  weight, and writes back the product of the two as rows `5000 t … 5000 t + 4999` of the output. A row of the
  product depends only on the same row of the features, so each written block is that block of ONE function of the
  two arrays, the dense product `Spec.prod`; the ten blocks tile the 50000 rows, so the array ends at `Spec.prod`.
-/
import proofs.«151465_j73796128080687_1_alg».proof.Proof.Gen.KernelIdeal.Frame
import proofs.«151465_j73796128080687_1_alg».proof.Proof.MatmulPoint
import proofs.«151465_j73796128080687_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)
open Cert.Spec Cert.KernelIdeal.Matmul

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten points: the features' and the output's block row is the point, every other
    block index is `0`. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One stored entry is an entry of the product, when the loaded blocks are read off the arrays at the matching
    rows and columns. -/
theorem entry (x : Vec Ideal S5000x128 .f32) (w : Vec Ideal S128x128 .f32) (X : SN.Idx → EReal) (Wt : SW.Idx → EReal)
    (j : S5000x128.Idx) (i : SN.Idx)
    (hx : ∀ k : Fin 128, x (rowIdx j k) = X (rowOf i k)) (hw : ∀ k : Fin 128, w (colIdx j k) = Wt (colOf i k)) :
    k0_pay1 (F := Ideal) x w j = prod X Wt i := by
  rw [pay0_apply]
  unfold prod
  exact Finset.sum_congr rfl fun k _ => by rw [hx k, hw k]

/-- What point `t` writes back is block `t` of the product of the arrays as the region finds them. -/
theorem flushed_eq (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_maps t
  funext j
  refine entry (iblk0 V c 0 t) (iblk0 V c 1 t) (V c main_arg0) (V c main_arg1) j (((cfg0.win 2).blk t).view.emb j) (fun k => ?_) (fun k => ?_)
  · show V c main_arg0 (((cfg0.win 0).blk t).view.emb (rowIdx j k)) = V c main_arg0 (rowOf (((cfg0.win 2).blk t).view.emb j) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg1 (((cfg0.win 1).blk t).view.emb (colIdx j k)) = V c main_arg1 (colOf (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` lies in the block of point `r / 5000`: the ten blocks tile the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  obtain ⟨e0, e1, e2, e3, e4, e5⟩ := index_maps t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array when the region ends: the dense product of the features and the weight as the region found them. -/
theorem array_eq (c : Dev nD) : (dat0 V c).arrAt 2 cfg0.N = prod (V c main_arg0) (V c main_arg1) :=
  (dat0 V c).arrAt_eq_of_cover 2 (prod (V c main_arg0) (V c main_arg1)) (fun t _ => flushed_eq V c t) (covered)

end Cert.KernelIdeal.Region0

end
-- ==== Proof.Region1.lean ====
/-
  Region 1 of the kernel's program: what its output array holds when the region ends.

  The region walks ten grid points; point `t` loads rows `5000 t … 5000 t + 4999` of the features and the whole
  weight, and writes back the product of the two as rows `5000 t … 5000 t + 4999` of the output. A row of the
  product depends only on the same row of the features, so each written block is that block of ONE function of the
  two arrays, the dense product `Spec.prod`; the ten blocks tile the 50000 rows, so the array ends at `Spec.prod`.
-/
import proofs.«151465_j73796128080687_1_alg».proof.Proof.Gen.KernelIdeal.Frame
import proofs.«151465_j73796128080687_1_alg».proof.Proof.MatmulPoint
import proofs.«151465_j73796128080687_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Cert.Spec Cert.KernelIdeal.Matmul

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten points: the features' and the output's block row is the point, every other
    block index is `0`. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One stored entry is an entry of the product, when the loaded blocks are read off the arrays at the matching
    rows and columns. -/
theorem entry (x : Vec Ideal S5000x128 .f32) (w : Vec Ideal S128x128 .f32) (X : SN.Idx → EReal) (Wt : SW.Idx → EReal)
    (j : S5000x128.Idx) (i : SN.Idx)
    (hx : ∀ k : Fin 128, x (rowIdx j k) = X (rowOf i k)) (hw : ∀ k : Fin 128, w (colIdx j k) = Wt (colOf i k)) :
    k1_pay1 (F := Ideal) x w j = prod X Wt i := by
  rw [pay1_apply]
  unfold prod
  exact Finset.sum_congr rfl fun k _ => by rw [hx k, hw k]

/-- What point `t` writes back is block `t` of the product of the arrays as the region finds them. -/
theorem flushed_eq (c : Dev nD) (t : Fin cfg1.N) :
    (dat1 V c).flushed 2 t = ((cfg1.win 2).blk t).view.read (Elt Ideal) (prod (V c main_arg0) (V c main_arg2)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := index_maps t
  funext j
  refine entry (iblk1 V c 0 t) (iblk1 V c 1 t) (V c main_arg0) (V c main_arg2) j (((cfg1.win 2).blk t).view.emb j) (fun k => ?_) (fun k => ?_)
  · show V c main_arg0 (((cfg1.win 0).blk t).view.emb (rowIdx j k)) = V c main_arg0 (rowOf (((cfg1.win 2).blk t).view.emb j) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg2 (((cfg1.win 1).blk t).view.emb (colIdx j k)) = V c main_arg2 (colOf (((cfg1.win 2).blk t).view.emb j) k)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v1).slice (win1_2.rect t)).set ↔ _
  rw [View.set_slice_whole, Rect.mem_set_unit]
  exact Iff.rfl

/-- Row `r` lies in the block of point `r / 5000`: the ten blocks tile the array. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  obtain ⟨e0, e1, e2, e3, e4, e5⟩ := index_maps t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array when the region ends: the dense product of the features and the weight as the region found them. -/
theorem array_eq (c : Dev nD) : (dat1 V c).arrAt 2 cfg1.N = prod (V c main_arg0) (V c main_arg2) :=
  (dat1 V c).arrAt_eq_of_cover 2 (prod (V c main_arg0) (V c main_arg2)) (fun t _ => flushed_eq V c t) (covered)

end Cert.KernelIdeal.Region1

end
-- ==== Proof.ReluPoint.lean ====
/-
  One grid point of the closing region, read at an index over the extended reals.

  The body loads its 5000 × 128 blocks of the two aggregates and the one row of the bias, casts each to the shape it
  already has, adds the two blocks, adds the bias row broadcast down the rows, and takes the maximum with the zero
  splat. So at row `p`, column `q` of the block it stores `max ((a₀ (p, q) + a₁ (p, q)) + b (0, q)) 0`.
-/
import proofs.«151465_j73796128080687_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.BiasRelu

open Cert.KernelIdeal Cert.KernelIdeal.Gen Idealize.ShloMosaic Idealize.ShloMosaic.TcCoe Idealize.SL.Sem
open Idealize.ShloMosaic.ValueIdx

/-- What the closing region's body stores, at row `p` and column `q` of its block. -/
theorem pay_apply (a0 a1 : Vec Ideal S5000x128 .f32) (b : Vec Ideal S1x128 .f32) (p : Fin 5000) (q : Fin 128) :
    k2_pay1 (F := Ideal) a0 a1 b (ix2 p q)
      = max ((a0 (ix2 p q) + a1 (ix2 p q)) + b (ix2 (0 : Fin 1) q)) (Ideal.ofBits .f32 0x00000000#32) := by
  unfold k2_pay1
  rw [shapeCast_self a0, shapeCast_self a1, shapeCast_self b]
  rw [maximumf_apply, addf_apply, addf_apply, broadcastTo_1b_ab_apply]
  rfl

end Cert.KernelIdeal.BiasRelu

end
-- ==== Proof.Region2.lean ====
/-
  Region 2 of the kernel's program, the closing elementwise step: what its output array holds when the region ends.

  Point `t` of ten loads rows `5000 t … 5000 t + 4999` of the two aggregates and the one row of the bias (kept
  as a 1 × 128 array), and writes back `max ((a₀ + a₁) + bias row, 0)` as the same rows of the output. Each entry
  depends on the same entry of the aggregates and on the bias at its column, so every written block is that block of
  ONE function of the three arrays, `tail`; the ten blocks tile the 50000 rows, so the array ends at `tail`.
-/
import proofs.«151465_j73796128080687_1_alg».proof.Proof.Gen.KernelIdeal.Frame
import proofs.«151465_j73796128080687_1_alg».proof.Proof.ReluPoint
import proofs.«151465_j73796128080687_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.Spec Cert.KernelIdeal.BiasRelu

variable (V : (c : Dev nD) → (b : Ref sig .tc) → Buf (Elt Ideal) ((c : Thread nD τ).loc b))

theorem zero_offsets : (![0, 0] : Fin 2 → Nat) = fun _ => 0 := funext fun a => by fin_cases a <;> rfl

/-- The bias row's entry for the output index `i = (r, q)`: `(0, q)`. -/
abbrev rowZero (i : SN.Idx) : S1x128.Idx := fun a => match a with
  | ⟨0, _⟩ => ⟨0, Nat.one_pos⟩
  | ⟨1, _⟩ => ⟨(i 1).val, (i 1).isLt⟩

/-- The closing step over the bias kept as one row. -/
def tail (a0 a1 : SN.Idx → EReal) (b : S1x128.Idx → EReal) : SN.Idx → EReal :=
  fun i => max ((a0 i + a1 i) + b (rowZero i)) (Ideal.ofBits .f32 0x00000000#32)

/-- The printed index maps over the ten points: the aggregates' and the output's block row is the point, the bias
    row's block stays at the origin, every column block index is `0`. -/
theorem index_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One stored entry is an entry of `tail`, when the loaded blocks are read off the arrays at the matching places. -/
theorem entry (x0 x1 : Vec Ideal S5000x128 .f32) (xb : Vec Ideal S1x128 .f32) (A0 A1 : SN.Idx → EReal) (B : S1x128.Idx → EReal)
    (p : Fin 5000) (q : Fin 128) (i : SN.Idx)
    (h0 : x0 (ix2 p q) = A0 i) (h1 : x1 (ix2 p q) = A1 i) (hb : xb (ix2 (0 : Fin 1) q) = B (rowZero i)) :
    k2_pay1 (F := Ideal) x0 x1 xb (ix2 p q) = tail A0 A1 B i := by
  rw [pay_apply, h0, h1, hb]
  rfl

/-- What point `t` writes back is block `t` of `tail` of the arrays as the region finds them. -/
theorem flushed_eq (c : Dev nD) (t : Fin cfg2.N) :
    (dat2 V c).flushed 3 t = ((cfg2.win 3).blk t).view.read (Elt Ideal) (tail (V c main_v18) (V c main_v35) (V c main_v36)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S1x128) zero_offsets]
  obtain ⟨e0, e1, e2, e3, e4, e5, e6, e7⟩ := index_maps t
  funext j
  obtain ⟨p, q, rfl⟩ : ∃ (p : Fin 5000) (q : Fin 128), j = ix2 p q := ⟨j 0, j 1, eq_ix2 j⟩
  refine entry (iblk2 V c 0 t) (iblk2 V c 1 t) (iblk2 V c 2 t) (V c main_v18) (V c main_v35) (V c main_v36) p q
    (((cfg2.win 3).blk t).view.emb (ix2 p q)) ?_ ?_ ?_
  · show V c main_v18 (((cfg2.win 0).blk t).view.emb (ix2 p q)) = V c main_v18 (((cfg2.win 3).blk t).view.emb (ix2 p q))
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  · show V c main_v35 (((cfg2.win 1).blk t).view.emb (ix2 p q)) = V c main_v35 (((cfg2.win 3).blk t).view.emb (ix2 p q))
    refine congrArg _ (funext fun a => Fin.ext ?_)
    match a with
    | ⟨0, _⟩ => show win2_1.index t (0 : Fin 2) * 5000 + 1 * p.val = win2_3.index t (0 : Fin 2) * 5000 + 1 * p.val; omega
    | ⟨1, _⟩ => show win2_1.index t (1 : Fin 2) * 128 + 1 * q.val = win2_3.index t (1 : Fin 2) * 128 + 1 * q.val; omega
  · show V c main_v36 (((cfg2.win 2).blk t).view.emb (ix2 (0 : Fin 1) q)) = V c main_v36 (rowZero (((cfg2.win 3).blk t).view.emb (ix2 p q)))
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega

/-- An index of the output is in point `t`'s block iff each coordinate is in the block's range on its axis. -/
theorem mem_block (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v37).slice (win2_3.rect t)).set ↔ _
  rw [View.set_slice_whole, Rect.mem_set_unit]
  exact Iff.rfl

/-- Row `r` lies in the block of point `r / 5000`: the ten blocks tile the array. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by show (i 0).val / 5000 < grid2.N; rw [N_2]; omega⟩
  obtain ⟨e0, e1, e2, e3, e4, e5, e6, e7⟩ := index_maps t
  have ht : t.val = (i 0).val / 5000 := rfl
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array when the region ends: `tail` of the two aggregates and the bias row as the region found them. -/
theorem array_eq (c : Dev nD) : (dat2 V c).arrAt 3 cfg2.N = tail (V c main_v18) (V c main_v35) (V c main_v36) :=
  (dat2 V c).arrAt_eq_of_cover 3 (tail (V c main_v18) (V c main_v35) (V c main_v36)) (fun t _ => flushed_eq V c t) (covered)

end Cert.KernelIdeal.Region2

end
-- ==== Proof.KernelValue.lean ====
/-
  The kernel's result as one function of its arguments, over the extended reals.

  @main is: the two dense products (regions 0 and 1), the host's sparse aggregation of each (one stretch of host
  operations: gather the product's rows by source node, scale by the edge values, sum into the destination rows), the
  bias reshaped to one row, and the closing region. Reading the buffer contents backwards from the last boundary:
  the result is the closing region's array, `tail` of the two aggregates and the bias row; each aggregate is the
  aggregation `agg` applied to what the stretch found in a product's buffer, which is that region's array, the dense
  product of the arguments; no region and no host operation writes an argument. The bias row at `(0, q)` is the bias
  at `q`, so `tail` over the row is `Spec.biasRelu` over the bias.
-/
import proofs.«151465_j73796128080687_1_alg».proof.Proof.Region0
import proofs.«151465_j73796128080687_1_alg».proof.Proof.Region1
import proofs.«151465_j73796128080687_1_alg».proof.Proof.Region2
import Idealize.ShloMosaic.Lib.StableHlo.Run
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Cert.Spec

/-- The sparse aggregation, as the host computes it: edge `e` adds `ev e` times row `src e` of `dense` into row
    `dst e`, where `dst` and `src` are the two rows of `ei` (a negative `src` counted from the end). -/
def agg (ei : (⟨S2x800000, .i32⟩ : BufTy).Contents (Elt Ideal)) (ev : (⟨S800000, .f32⟩ : BufTy).Contents (Elt Ideal))
    (dense : (⟨S50000x128, .f32⟩ : BufTy).Contents (Elt Ideal)) : (⟨S50000x128, .f32⟩ : BufTy).Contents (Elt Ideal) :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![0, 0] ei slices_S2x800000_S1x800000_0_0) shapeCasts_S1x800000_S800000)) (mulf (broadcastInDim S800000x128 ![0, 1] bcast_S800000x1_S800000x128_0_1 (broadcastInDim S800000x1 ![0] bcast_S800000_S800000x1_0 ev)) (Host.gather gather_S50000x128_S800000x1_S800000x128_1_0_n_n_0_1_1128 dense (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000)))))

variable (m : (ℓ : Loc nD τ sig) → Buf (Elt Ideal) ℓ) (ρ : Dev nD → PrngReg)

/-! ## The arguments, as the host stretch finds them -/

theorem W2_arg3 (c : Dev nD) : W2 m ρ c (Proc.devRef .tc main_arg3) = m ((c : Thread nD τ).loc main_arg3) :=
  (W2_of_ne m ρ c main_arg3 (by decide)).trans ((W1_of_ne m ρ c main_arg3 (by decide)).trans rfl)
theorem W2_arg4 (c : Dev nD) : W2 m ρ c (Proc.devRef .tc main_arg4) = m ((c : Thread nD τ).loc main_arg4) :=
  (W2_of_ne m ρ c main_arg4 (by decide)).trans ((W1_of_ne m ρ c main_arg4 (by decide)).trans rfl)
theorem W2_arg5 (c : Dev nD) : W2 m ρ c (Proc.devRef .tc main_arg5) = m ((c : Thread nD τ).loc main_arg5) :=
  (W2_of_ne m ρ c main_arg5 (by decide)).trans ((W1_of_ne m ρ c main_arg5 (by decide)).trans rfl)
theorem W2_arg6 (c : Dev nD) : W2 m ρ c (Proc.devRef .tc main_arg6) = m ((c : Thread nD τ).loc main_arg6) :=
  (W2_of_ne m ρ c main_arg6 (by decide)).trans ((W1_of_ne m ρ c main_arg6 (by decide)).trans rfl)
theorem W2_arg7 (c : Dev nD) : W2 m ρ c (Proc.devRef .tc main_arg7) = m ((c : Thread nD τ).loc main_arg7) :=
  (W2_of_ne m ρ c main_arg7 (by decide)).trans ((W1_of_ne m ρ c main_arg7 (by decide)).trans rfl)

/-- Region 0 reads the features through an input window and leaves them as they were. -/
theorem W1_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W1_arg2 (c : Dev nD) : W1 m ρ c (Proc.devRef .tc main_arg2) = m ((c : Thread nD τ).loc main_arg2) :=
  (W1_of_ne m ρ c main_arg2 (by decide)).trans rfl

/-! ## The two dense products, as the host stretch finds them -/

theorem W2_v0 (c : Dev nD) : W2 m ρ c (Proc.devRef .tc main_v0) = prod (m ((c : Thread nD τ).loc main_arg0)) (m ((c : Thread nD τ).loc main_arg1)) :=
  (W2_of_ne m ρ c main_v0 (by decide)).trans ((W1_arr m ρ c 2).trans (Region0.array_eq (V0 m ρ) c))

theorem W2_v1 (c : Dev nD) : W2 m ρ c (Proc.devRef .tc main_v1) = prod (m ((c : Thread nD τ).loc main_arg0)) (m ((c : Thread nD τ).loc main_arg2)) :=
  ((W2_arr m ρ c 2).trans (Region1.array_eq (V1 m ρ) c)).trans (congrArg₂ prod (W1_arg0 m ρ c) (W1_arg2 m ρ c))

/-! ## The host stretch, read at the closing region's three operands -/

theorem V3_v18 (c : Dev nD) : V3 m ρ c main_v18
    = agg (W2 m ρ c (Proc.devRef .tc main_arg6)) (W2 m ρ c (Proc.devRef .tc main_arg4)) (W2 m ρ c (Proc.devRef .tc main_v0)) := by
  show StableHlo.after hostOps2 (W2 m ρ c) (Proc.devRef .tc main_v18) = _
  dsimp only [hostOps2]
  after_results_simp <;> rfl

theorem V3_v35 (c : Dev nD) : V3 m ρ c main_v35
    = agg (W2 m ρ c (Proc.devRef .tc main_arg7)) (W2 m ρ c (Proc.devRef .tc main_arg5)) (W2 m ρ c (Proc.devRef .tc main_v1)) := by
  show StableHlo.after hostOps2 (W2 m ρ c) (Proc.devRef .tc main_v35) = _
  dsimp only [hostOps2]
  after_results_simp <;> rfl

theorem V3_v36 (c : Dev nD) : V3 m ρ c main_v36 = shapeCast S1x128 (W2 m ρ c (Proc.devRef .tc main_arg3)) shapeCasts_S128_S1x128 := by
  show StableHlo.after hostOps2 (W2 m ρ c) (Proc.devRef .tc main_v36) = _
  dsimp only [hostOps2]
  after_results_simp <;> rfl

/-! ## The bias as one row -/

/-- The closing step over the bias reshaped to one row is the closing step over the bias. -/
theorem tail_row (a0 a1 : SN.Idx → EReal) (b : S128.Idx → EReal) :
    Region2.tail a0 a1 (shapeCast S1x128 b shapeCasts_S128_S1x128) = biasRelu a0 a1 b := by
  funext i
  unfold Region2.tail biasRelu
  have e1 : Region2.rowZero i = ix2 (0 : Fin 1) (⟨(i 1).val, (i 1).isLt⟩ : Fin 128) :=
    funext fun a => match a with | ⟨0, _⟩ => rfl | ⟨1, _⟩ => rfl
  have e2 : biasOf i = ix1 (⟨(i 1).val, (i 1).isLt⟩ : Fin 128) := funext fun a => match a with | ⟨0, _⟩ => rfl
  rw [e1, e2, shapeCast_a_1a_apply b shapeCasts_S128_S1x128 (0 : Fin 1) ⟨(i 1).val, (i 1).isLt⟩]

/-! ## The result -/

/-- The result array at the last boundary: the closing step of the two aggregated dense products and the bias. -/
theorem result_eq (c : Dev nD) : W4 m ρ c (Proc.devRef .tc main_v37)
    = biasRelu (agg (m ((c : Thread nD τ).loc main_arg6)) (m ((c : Thread nD τ).loc main_arg4)) (prod (m ((c : Thread nD τ).loc main_arg0)) (m ((c : Thread nD τ).loc main_arg1))))
        (agg (m ((c : Thread nD τ).loc main_arg7)) (m ((c : Thread nD τ).loc main_arg5)) (prod (m ((c : Thread nD τ).loc main_arg0)) (m ((c : Thread nD τ).loc main_arg2))))
        (m ((c : Thread nD τ).loc main_arg3)) := by
  refine ((W4_arr m ρ c 3).trans (Region2.array_eq (V3 m ρ) c)).trans ?_
  rw [V3_v18, V3_v35, V3_v36, W2_arg3, W2_arg4, W2_arg5, W2_arg6, W2_arg7, W2_v0, W2_v1]
  exact tail_row _ _ _

end Cert.KernelIdeal.Result

end
-- ==== Proof.RefValue.lean ====
/-
  The reference's result as one function of its arguments, over the extended reals.

  The reference computes the two dense products on the host, aggregates each (the same host operations the kernel's
  program applies to its own products), adds the two aggregates, adds the bias broadcast down the rows, and takes the
  maximum with zero. Its product's entry `(r, q)` is `∑ k, x (r, k) * w (k, q)`, which is `Spec.prod`; its closing
  operations at entry `(r, q)` are `max ((a₀ + a₁) + b q) 0`, which is `Spec.biasRelu`.
-/
import proofs.«151465_j73796128080687_1_alg».proof.Proof.Gen.ReferenceIdeal.Run
import proofs.«151465_j73796128080687_1_alg».proof.Proof.Gen.ReferenceIdeal.Read
import proofs.«151465_j73796128080687_1_alg».proof.Proof.Spec

set_option maxRecDepth 16384

noncomputable section

namespace Cert.ReferenceIdeal.Result

open Cert.ReferenceIdeal Cert.ReferenceIdeal.Gen Idealize.ShloMosaic Idealize.ShloMosaic.TcCoe Idealize.SL.Sem
open Idealize.ShloMosaic.StableHlo Idealize.ShloMosaic.ValueIdx
open Cert.Spec

/-- The sparse aggregation, as the host computes it: edge `e` adds `ev e` times row `src e` of `dense` into row
    `dst e`, where `dst` and `src` are the two rows of `ei` (a negative `src` counted from the end). -/
def agg (ei : (⟨S2x800000, .i32⟩ : BufTy).Contents (Elt Ideal)) (ev : (⟨S800000, .f32⟩ : BufTy).Contents (Elt Ideal))
    (dense : (⟨S50000x128, .f32⟩ : BufTy).Contents (Elt Ideal)) : (⟨S50000x128, .f32⟩ : BufTy).Contents (Elt Ideal) :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![0, 0] ei slices_S2x800000_S1x800000_0_0) shapeCasts_S1x800000_S800000)) (mulf (broadcastInDim S800000x128 ![0, 1] bcast_S800000x1_S800000x128_0_1 (broadcastInDim S800000x1 ![0] bcast_S800000_S800000x1_0 ev)) (Host.gather gather_S50000x128_S800000x1_S800000x128_1_0_n_n_0_1_1128 dense (broadcastInDim S800000x1 ![0] bcast_S800000_S800000x1_0 (select (cmpi .slt (shapeCast _ (extractStridedSlice S1x800000 ![1, 0] ei slices_S2x800000_S1x800000_1_0) shapeCasts_S1x800000_S800000) (broadcastInDim S800000 ![] bcast_S_S800000 (constantI S_ 32 0#32))) (addi (shapeCast _ (extractStridedSlice S1x800000 ![1, 0] ei slices_S2x800000_S1x800000_1_0) shapeCasts_S1x800000_S800000) (broadcastInDim S800000 ![] bcast_S_S800000 (constantI S_ 32 50000#32))) (shapeCast _ (extractStridedSlice S1x800000 ![1, 0] ei slices_S2x800000_S1x800000_1_0) shapeCasts_S1x800000_S800000)))))

/-- The host's product of the features with a weight is the dense product, entry by entry. -/
theorem dot_eq (x : FVec Ideal S50000x128 .f32) (w : FVec Ideal S128x128 .f32) :
    Host.dotGeneral dot_S50000x128_S128x128_S50000x128_1_0_0_1_n_n none x w = prod x w :=
  funext fun i => Read.val_main_v0_apply x w i

/-- The closing host operations are the closing step, entry by entry: the bias broadcast to one row and then down
    the rows reads the bias at the entry's column, the zero splat reads zero. -/
theorem closing_eq (A0 A1 : FVec Ideal S50000x128 .f32) (b : FVec Ideal S128 .f32) :
    maximumf (addf (addf A0 A1) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))
      = biasRelu A0 A1 b := by
  funext i
  rw [maximumf_apply, addf_apply, addf_apply]
  have hb : (broadcastInDim S50000x128 ![0, 1] bcast_S1x128_S50000x128_0_1 (broadcastInDim S1x128 ![1] bcast_S128_S1x128_1 b)) i = b (biasOf i) :=
    (Read.val_main_v38_apply (F := Ideal) b i).trans ((Read.val_main_v37_apply (F := Ideal) b _).trans
      (congrArg b (funext fun a => match a with | ⟨0, _⟩ => rfl)))
  have hz : (broadcastInDim S50000x128 ![] bcast_S_S50000x128 (constant (F := Ideal) S_ .f32 0x00000000#32)) i = Ideal.ofBits .f32 0x00000000#32 :=
    (Read.val_main_call0_v0_apply (F := Ideal) i).trans rfl
  rw [hb, hz]
  rfl

/-- The term the reference's run ends at is the closing step of the two aggregated dense products and the bias. -/
theorem term_eq (x0 : FVec Ideal S50000x128 .f32) (x1 x2 : FVec Ideal S128x128 .f32) (x3 : FVec Ideal S128 .f32)
    (x4 x5 : FVec Ideal S800000 .f32) (x6 x7 : IVec S2x800000 32) :
    maximumf (addf (addf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![0, 0] x6 slices_S2x800000_S1x800000_0_0) shapeCasts_S1x800000_S800000)) (mulf (broadcastInDim S800000x128 ![0, 1] bcast_S800000x1_S800000x128_0_1 (broadcastInDim S800000x1 ![0] bcast_S800000_S800000x1_0 x4)) (Host.gather gather_S50000x128_S800000x1_S800000x128_1_0_n_n_0_1_1128 (Host.dotGeneral dot_S50000x128_S128x128_S50000x128_1_0_0_1_n_n none x0 x1) (broadcastInDim S800000x1 ![0] bcast_S800000_S800000x1_0 (select (cmpi .slt (shapeCast _ (extractStridedSlice S1x800000 ![1, 0] x6 slices_S2x800000_S1x800000_1_0) shapeCasts_S1x800000_S800000) (broadcastInDim S800000 ![] bcast_S_S800000 (constantI S_ 32 0#32))) (addi (shapeCast _ (extractStridedSlice S1x800000 ![1, 0] x6 slices_S2x800000_S1x800000_1_0) shapeCasts_S1x800000_S800000) (broadcastInDim S800000 ![] bcast_S_S800000 (constantI S_ 32 50000#32))) (shapeCast _ (extractStridedSlice S1x800000 ![1, 0] x6 slices_S2x800000_S1x800000_1_0) shapeCasts_S1x800000_S800000)))))) (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![0, 0] x7 slices_S2x800000_S1x800000_0_0) shapeCasts_S1x800000_S800000)) (mulf (broadcastInDim S800000x128 ![0, 1] bcast_S800000x1_S800000x128_0_1 (broadcastInDim S800000x1 ![0] bcast_S800000_S800000x1_0 x5)) (Host.gather gather_S50000x128_S800000x1_S800000x128_1_0_n_n_0_1_1128 (Host.dotGeneral dot_S50000x128_S128x128_S50000x128_1_0_0_1_n_n none x0 x2) (broadcastInDim S800000x1 ![0] bcast_S800000_S800000x1_0 (select (cmpi .slt (shapeCast _ (extractStridedSlice S1x800000 ![1, 0] x7 slices_S2x800000_S1x800000_1_0) shapeCasts_S1x800000_S800000) (broadcastInDim S800000 ![] bcast_S_S800000 (constantI S_ 32 0#32))) (addi (shapeCast _ (extractStridedSlice S1x800000 ![1, 0] x7 slices_S2x800000_S1x800000_1_0) shapeCasts_S1x800000_S800000) (broadcastInDim S800000 ![] bcast_S_S800000 (constantI S_ 32 50000#32))) (shapeCast _ (extractStridedSlice S1x800000 ![1, 0] x7 slices_S2x800000_S1x800000_1_0) shapeCasts_S1x800000_S800000))))))) (broadcastInDim S50000x128 ![0, 1] bcast_S1x128_S50000x128_0_1 (broadcastInDim S1x128 ![1] bcast_S128_S1x128_1 x3))) (broadcastInDim S50000x128 ![] bcast_S_S50000x128 (constant (F := Ideal) S_ .f32 0x00000000#32))
      = biasRelu (agg x6 x4 (prod x0 x1)) (agg x7 x5 (prod x0 x2)) x3 := by
  rw [dot_eq x0 x1, dot_eq x0 x2]
  exact closing_eq _ _ _

end Cert.ReferenceIdeal.Result

end
-- ==== Proof.lean ====
/-
  The kernel's program computes `relu ((A₀ · (x W₀) + A₁ · (x W₁)) + bias)` for two sparse matrices `A₀`, `A₁`
  given by edge lists — the two dense products `x W₀`, `x W₁` in two pipelined regions of ten row blocks, each
  product aggregated along its edges by host operations (gather the source rows, scale by the edge values, sum into
  the destination rows), and the sum with the bias and the maximum with zero in a third region of ten row blocks. The
  reference computes the same with the products and the closing step on the host.

  Over the extended reals both results are ONE function of the arguments:
  `Spec.biasRelu (agg ei₀ ev₀ (Spec.prod x W₀)) (agg ei₁ ev₁ (Spec.prod x W₁)) bias`.
  A row of a product depends on the same row of `x` only, so the ten written blocks are blocks of `Spec.prod` and tile
  it; the change to bf16 before the product is the identity; the accumulator starts at zero. The aggregation is the
  same list of host operations in both programs and is never opened: only the arrays it is applied to are shown equal.
  The closing step groups its sums the same way on both sides, `(a₀ + a₁) + b`, so no law of the extended reals
  beyond reading each operation at an index is used, and the precondition is not opened.

  The frames of the two kernel programs are the generated ones; the reference's frame is its run with the result
  dropped; the idealization rewrote nothing, so `preserves` is `True`.
-/
import proofs.«151465_j73796128080687_1_alg».proof.Defs
import proofs.«151465_j73796128080687_1_alg».proof.Proof.Gen.Kernel
import proofs.«151465_j73796128080687_1_alg».proof.Proof.Gen.Kernel.Frame
import proofs.«151465_j73796128080687_1_alg».proof.Proof.Gen.KernelIdeal
import proofs.«151465_j73796128080687_1_alg».proof.Proof.Gen.KernelIdeal.Frame
import proofs.«151465_j73796128080687_1_alg».proof.Proof.Gen.ReferenceIdeal
import proofs.«151465_j73796128080687_1_alg».proof.Proof.Gen.ReferenceIdeal.Run
import proofs.«151465_j73796128080687_1_alg».proof.Proof.Gen.Pre_finite_inputs
import proofs.«151465_j73796128080687_1_alg».proof.Proof.KernelRun
import proofs.«151465_j73796128080687_1_alg».proof.Proof.KernelValue
import proofs.«151465_j73796128080687_1_alg».proof.Proof.RefValue
import Idealize.ShloMosaic.Adequacy
import Idealize.ShloMosaic.Init

noncomputable section

namespace Cert.Proof

open Idealize.ShloMosaic Idealize.SL.Sem

/-- The sparse aggregation is one function, whichever program's shape records spell it. -/
theorem agg_eq : Cert.KernelIdeal.Result.agg = Cert.ReferenceIdeal.Result.agg := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the closing step of the two aggregated dense products and the bias, of arguments that agree. -/
theorem algebraic : Cert.algebraic_KernelIdeal_ReferenceIdeal := by
  intro m ρ m' ρ' _ hagree
  refine ⟨fun c => Cert.Spec.biasRelu
      (Cert.KernelIdeal.Result.agg (m ((c.tc : Thread Cert.KernelIdeal.nD Cert.KernelIdeal.τ).loc Cert.KernelIdeal.main_arg6)) (m ((c.tc : Thread Cert.KernelIdeal.nD Cert.KernelIdeal.τ).loc Cert.KernelIdeal.main_arg4)) (Cert.Spec.prod (m ((c.tc : Thread Cert.KernelIdeal.nD Cert.KernelIdeal.τ).loc Cert.KernelIdeal.main_arg0)) (m ((c.tc : Thread Cert.KernelIdeal.nD Cert.KernelIdeal.τ).loc Cert.KernelIdeal.main_arg1))))
      (Cert.KernelIdeal.Result.agg (m ((c.tc : Thread Cert.KernelIdeal.nD Cert.KernelIdeal.τ).loc Cert.KernelIdeal.main_arg7)) (m ((c.tc : Thread Cert.KernelIdeal.nD Cert.KernelIdeal.τ).loc Cert.KernelIdeal.main_arg5)) (Cert.Spec.prod (m ((c.tc : Thread Cert.KernelIdeal.nD Cert.KernelIdeal.τ).loc Cert.KernelIdeal.main_arg0)) (m ((c.tc : Thread Cert.KernelIdeal.nD Cert.KernelIdeal.τ).loc Cert.KernelIdeal.main_arg2))))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.result_eq m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Result.term_eq, h0, h1, h2, h3, h4, h5, h6, h7, ← agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
